-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1 : Shape := ⟨1, ![1]⟩
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S1 : S_.BroadcastsInDim S1 (![] : Fin 0 → Fin S1.rank)
  reducesTo_S1_S_d0 : S1.ReducesTo [0] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg8 : FVec F S128 .f32) (main_arg9 : FVec F S128x128 .f32) (main_arg10 : FVec F S128x128 .f32) (main_arg11 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg5 : FVec F S128 .f32) (main_arg6 : FVec F S128x128 .f32) (main_arg7 : FVec F S128x128 .f32) (main_arg8 : FVec F S128 .f32) (main_arg9 : FVec F S128x128 .f32) (main_arg10 : FVec F S128x128 .f32) (main_arg11 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S1 .f32) (main_arg1 : FVec F S100000x128 .f32) (main_arg2 : IVec S2x1600000 32) (main_arg3 : FVec F S128x128 .f32) (main_arg4 : FVec F S128x128 .f32) (main_arg5 : FVec F S128 .f32) (main_arg6 : FVec F S128x128 .f32) (main_arg7 : FVec F S128x128 .f32) (main_arg8 : FVec F S128 .f32) (main_arg9 : FVec F S128x128 .f32) (main_arg10 : FVec F S128x128 .f32) (main_arg11 : FVec F S128 .f32) : IVec S_ 1 :=
  let main_v0 : FVec F S1 .f32 := Host.absf main_arg0
  let main_cst : FVec F S_ .f32 := constant S_ .f32 0x7F800000#32
  let main_v1 : FVec F S1 .f32 := broadcastInDim S1 ![] bcast_S_S1 main_cst
  let main_v2 : IVec S1 1 := cmpf .olt main_v0 main_v1
  let main_c : IVec S_ 1 := constantI S_ 1 1#1
  let main_v3 : IVec S_ 1 := (fun x v => Host.reduce IntOp.andi x v reducesTo_S1_S_d0 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_v13 main_v16
-- ==== Kernel.lean ====
abbrev S1 : Shape := ⟨1, ![1]⟩
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S5000x128 : Shape := ⟨2, ![5000, 128]⟩

abbrev nBuf : Space → Nat
  | .hbm => 89
  | .vmem => 27
  | .smem => 0
  | _ => 0

abbrev bufTy : (tb : Table) → Fin (tcTables nBuf tb) → BufTy
  | .hbm, ⟨0, _⟩ => ⟨S1, .f32⟩
  | .hbm, ⟨1, _⟩ => ⟨S100000x128, .f32⟩
  | .hbm, ⟨2, _⟩ => ⟨S2x1600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128x128, .f32⟩
  | .hbm, ⟨11, _⟩ => ⟨S128, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .f32⟩
  | .hbm, ⟨17, _⟩ => ⟨S1600000, .f32⟩
  | .hbm, ⟨18, _⟩ => ⟨S_, .f32⟩
  | .hbm, ⟨19, _⟩ => ⟨S100000, .f32⟩
  | .hbm, ⟨20, _⟩ => ⟨S1600000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x128, .f32⟩
  | .hbm, ⟨44, _⟩ => ⟨S_, .f32⟩
  | .hbm, ⟨45, _⟩ => ⟨S100000x128, .f32⟩
  | .hbm, ⟨46, _⟩ => ⟨S1600000x1, .i32⟩
  | .hbm, ⟨47, _⟩ => ⟨S100000x128, .f32⟩
  | .hbm, ⟨48, _⟩ => ⟨S100000x1, .f32⟩
  | .hbm, ⟨49, _⟩ => ⟨S100000x128, .f32⟩
  | .hbm, ⟨50, _⟩ => ⟨S100000x128, .f32⟩
  | .hbm, ⟨51, _⟩ => ⟨S1x128, .f32⟩
  | .hbm, ⟨52, _⟩ => ⟨S100000x128, .f32⟩
  | .hbm, ⟨53, _⟩ => ⟨S_, .i32⟩
  | .hbm, ⟨54, _⟩ => ⟨S1600000, .i32⟩
  | .hbm, ⟨55, _⟩ => ⟨S1600000, .i1⟩
  | .hbm, ⟨56, _⟩ => ⟨S_, .i32⟩
  | .hbm, ⟨57, _⟩ => ⟨S1600000, .i32⟩
  | .hbm, ⟨58, _⟩ => ⟨S1600000, .i32⟩
  | .hbm, ⟨59, _⟩ => ⟨S1600000, .i32⟩
  | .hbm, ⟨60, _⟩ => ⟨S1600000x1, .i32⟩
  | .hbm, ⟨61, _⟩ => ⟨S1600000x128, .f32⟩
  | .hbm, ⟨62, _⟩ => ⟨S_, .f32⟩
  | .hbm, ⟨63, _⟩ => ⟨S100000x128, .f32⟩
  | .hbm, ⟨64, _⟩ => ⟨S1600000x1, .i32⟩
  | .hbm, ⟨65, _⟩ => ⟨S100000x128, .f32⟩
  | .hbm, ⟨66, _⟩ => ⟨S100000x1, .f32⟩
  | .hbm, ⟨67, _⟩ => ⟨S100000x128, .f32⟩
  | .hbm, ⟨68, _⟩ => ⟨S100000x128, .f32⟩
  | .hbm, ⟨69, _⟩ => ⟨S1x128, .f32⟩
  | .hbm, ⟨70, _⟩ => ⟨S100000x128, .f32⟩
  | .hbm, ⟨71, _⟩ => ⟨S_, .i32⟩
  | .hbm, ⟨72, _⟩ => ⟨S1600000, .i32⟩
  | .hbm, ⟨73, _⟩ => ⟨S1600000, .i1⟩
  | .hbm, ⟨74, _⟩ => ⟨S_, .i32⟩
  | .hbm, ⟨75, _⟩ => ⟨S1600000, .i32⟩
  | .hbm, ⟨76, _⟩ => ⟨S1600000, .i32⟩
  | .hbm, ⟨77, _⟩ => ⟨S1600000, .i32⟩
  | .hbm, ⟨78, _⟩ => ⟨S1600000x1, .i32⟩
  | .hbm, ⟨79, _⟩ => ⟨S1600000x128, .f32⟩
  | .hbm, ⟨80, _⟩ => ⟨S_, .f32⟩
  | .hbm, ⟨81, _⟩ => ⟨S100000x128, .f32⟩
  | .hbm, ⟨82, _⟩ => ⟨S1600000x1, .i32⟩
  | .hbm, ⟨83, _⟩ => ⟨S100000x128, .f32⟩
  | .hbm, ⟨84, _⟩ => ⟨S100000x1, .f32⟩
  | .hbm, ⟨85, _⟩ => ⟨S100000x128, .f32⟩
  | .hbm, ⟨86, _⟩ => ⟨S100000x128, .f32⟩
  | .hbm, ⟨87, _⟩ => ⟨S1x128, .f32⟩
  | .hbm, ⟨88, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S128x128, .f32⟩
  | .local _ .vmem, ⟨24, _⟩ => ⟨S1x128, .f32⟩
  | .local _ .vmem, ⟨25, _⟩ => ⟨S5000x128, .f32⟩
  | .local _ .vmem, ⟨26, _⟩ => ⟨S5000x128, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_cst_3 : Ref sig .tc := ⟨.hbm, 28, rfl⟩
abbrev main_v12 : Ref sig .tc := ⟨.hbm, 29, rfl⟩
abbrev main_v13 : Ref sig .tc := ⟨.hbm, 30, rfl⟩
abbrev main_cst_4 : Ref sig .tc := ⟨.hbm, 31, rfl⟩
abbrev main_call0_v0 : Ref sig .tc := ⟨.hbm, 32, rfl⟩
abbrev main_call0_v1 : Ref sig .tc := ⟨.hbm, 33, rfl⟩
abbrev main_v14 : Ref sig .tc := ⟨.hbm, 34, rfl⟩
abbrev main_c : Ref sig .tc := ⟨.hbm, 35, rfl⟩
abbrev main_v15 : Ref sig .tc := ⟨.hbm, 36, rfl⟩
abbrev main_v16 : Ref sig .tc := ⟨.hbm, 37, rfl⟩
abbrev main_c_5 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_6 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_c_7 : Ref sig .tc := ⟨.hbm, 53, rfl⟩
abbrev main_v30 : Ref sig .tc := ⟨.hbm, 54, rfl⟩
abbrev main_v31 : Ref sig .tc := ⟨.hbm, 55, rfl⟩
abbrev main_c_8 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_9 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_c_10 : Ref sig .tc := ⟨.hbm, 71, rfl⟩
abbrev main_v45 : Ref sig .tc := ⟨.hbm, 72, rfl⟩
abbrev main_v46 : Ref sig .tc := ⟨.hbm, 73, rfl⟩
abbrev main_c_11 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_12 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v27) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v29) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v42) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v57) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v58) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v59) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S1 : Shape := ⟨1, ![1]⟩
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩

abbrev nBuf : Space → Nat
  | .hbm => 107
  | .vmem => 0
  | .smem => 0
  | _ => 0

abbrev bufTy : (tb : Table) → Fin (tcTables nBuf tb) → BufTy
  | .hbm, ⟨0, _⟩ => ⟨S1, .f32⟩
  | .hbm, ⟨1, _⟩ => ⟨S100000x128, .f32⟩
  | .hbm, ⟨2, _⟩ => ⟨S2x1600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128x128, .f32⟩
  | .hbm, ⟨11, _⟩ => ⟨S128, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .f32⟩
  | .hbm, ⟨17, _⟩ => ⟨S1600000, .f32⟩
  | .hbm, ⟨18, _⟩ => ⟨S_, .f32⟩
  | .hbm, ⟨19, _⟩ => ⟨S100000, .f32⟩
  | .hbm, ⟨20, _⟩ => ⟨S1600000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x128, .f32⟩
  | .hbm, ⟨44, _⟩ => ⟨S_, .f32⟩
  | .hbm, ⟨45, _⟩ => ⟨S100000x128, .f32⟩
  | .hbm, ⟨46, _⟩ => ⟨S1600000x1, .i32⟩
  | .hbm, ⟨47, _⟩ => ⟨S100000x128, .f32⟩
  | .hbm, ⟨48, _⟩ => ⟨S100000x1, .f32⟩
  | .hbm, ⟨49, _⟩ => ⟨S100000x128, .f32⟩
  | .hbm, ⟨50, _⟩ => ⟨S100000x128, .f32⟩
  | .hbm, ⟨51, _⟩ => ⟨S100000x128, .f32⟩
  | .hbm, ⟨52, _⟩ => ⟨S100000x128, .f32⟩
  | .hbm, ⟨53, _⟩ => ⟨S100000x128, .f32⟩
  | .hbm, ⟨54, _⟩ => ⟨S1x128, .f32⟩
  | .hbm, ⟨55, _⟩ => ⟨S100000x128, .f32⟩
  | .hbm, ⟨56, _⟩ => ⟨S100000x128, .f32⟩
  | .hbm, ⟨57, _⟩ => ⟨S_, .f32⟩
  | .hbm, ⟨58, _⟩ => ⟨S100000x128, .f32⟩
  | .hbm, ⟨59, _⟩ => ⟨S100000x128, .f32⟩
  | .hbm, ⟨60, _⟩ => ⟨S_, .i32⟩
  | .hbm, ⟨61, _⟩ => ⟨S1600000, .i32⟩
  | .hbm, ⟨62, _⟩ => ⟨S1600000, .i1⟩
  | .hbm, ⟨63, _⟩ => ⟨S_, .i32⟩
  | .hbm, ⟨64, _⟩ => ⟨S1600000, .i32⟩
  | .hbm, ⟨65, _⟩ => ⟨S1600000, .i32⟩
  | .hbm, ⟨66, _⟩ => ⟨S1600000, .i32⟩
  | .hbm, ⟨67, _⟩ => ⟨S1600000x1, .i32⟩
  | .hbm, ⟨68, _⟩ => ⟨S1600000x128, .f32⟩
  | .hbm, ⟨69, _⟩ => ⟨S_, .f32⟩
  | .hbm, ⟨70, _⟩ => ⟨S100000x128, .f32⟩
  | .hbm, ⟨71, _⟩ => ⟨S1600000x1, .i32⟩
  | .hbm, ⟨72, _⟩ => ⟨S100000x128, .f32⟩
  | .hbm, ⟨73, _⟩ => ⟨S100000x1, .f32⟩
  | .hbm, ⟨74, _⟩ => ⟨S100000x128, .f32⟩
  | .hbm, ⟨75, _⟩ => ⟨S100000x128, .f32⟩
  | .hbm, ⟨76, _⟩ => ⟨S100000x128, .f32⟩
  | .hbm, ⟨77, _⟩ => ⟨S100000x128, .f32⟩
  | .hbm, ⟨78, _⟩ => ⟨S100000x128, .f32⟩
  | .hbm, ⟨79, _⟩ => ⟨S1x128, .f32⟩
  | .hbm, ⟨80, _⟩ => ⟨S100000x128, .f32⟩
  | .hbm, ⟨81, _⟩ => ⟨S100000x128, .f32⟩
  | .hbm, ⟨82, _⟩ => ⟨S_, .f32⟩
  | .hbm, ⟨83, _⟩ => ⟨S100000x128, .f32⟩
  | .hbm, ⟨84, _⟩ => ⟨S100000x128, .f32⟩
  | .hbm, ⟨85, _⟩ => ⟨S_, .i32⟩
  | .hbm, ⟨86, _⟩ => ⟨S1600000, .i32⟩
  | .hbm, ⟨87, _⟩ => ⟨S1600000, .i1⟩
  | .hbm, ⟨88, _⟩ => ⟨S_, .i32⟩
  | .hbm, ⟨89, _⟩ => ⟨S1600000, .i32⟩
  | .hbm, ⟨90, _⟩ => ⟨S1600000, .i32⟩
  | .hbm, ⟨91, _⟩ => ⟨S1600000, .i32⟩
  | .hbm, ⟨92, _⟩ => ⟨S1600000x1, .i32⟩
  | .hbm, ⟨93, _⟩ => ⟨S1600000x128, .f32⟩
  | .hbm, ⟨94, _⟩ => ⟨S_, .f32⟩
  | .hbm, ⟨95, _⟩ => ⟨S100000x128, .f32⟩
  | .hbm, ⟨96, _⟩ => ⟨S1600000x1, .i32⟩
  | .hbm, ⟨97, _⟩ => ⟨S100000x128, .f32⟩
  | .hbm, ⟨98, _⟩ => ⟨S100000x1, .f32⟩
  | .hbm, ⟨99, _⟩ => ⟨S100000x128, .f32⟩
  | .hbm, ⟨100, _⟩ => ⟨S100000x128, .f32⟩
  | .hbm, ⟨101, _⟩ => ⟨S100000x128, .f32⟩
  | .hbm, ⟨102, _⟩ => ⟨S100000x128, .f32⟩
  | .hbm, ⟨103, _⟩ => ⟨S100000x128, .f32⟩
  | .hbm, ⟨104, _⟩ => ⟨S1x128, .f32⟩
  | .hbm, ⟨105, _⟩ => ⟨S100000x128, .f32⟩
  | .hbm, ⟨106, _⟩ => ⟨S100000x128, .f32⟩
  | _, _ => ⟨S1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_cst_3 : Ref sig .tc := ⟨.hbm, 28, rfl⟩
abbrev main_v12 : Ref sig .tc := ⟨.hbm, 29, rfl⟩
abbrev main_v13 : Ref sig .tc := ⟨.hbm, 30, rfl⟩
abbrev main_cst_4 : Ref sig .tc := ⟨.hbm, 31, rfl⟩
abbrev main_call0_v0 : Ref sig .tc := ⟨.hbm, 32, rfl⟩
abbrev main_call0_v1 : Ref sig .tc := ⟨.hbm, 33, rfl⟩
abbrev main_v14 : Ref sig .tc := ⟨.hbm, 34, rfl⟩
abbrev main_c : Ref sig .tc := ⟨.hbm, 35, rfl⟩
abbrev main_v15 : Ref sig .tc := ⟨.hbm, 36, rfl⟩
abbrev main_v16 : Ref sig .tc := ⟨.hbm, 37, rfl⟩
abbrev main_c_5 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_6 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_call1_cst : Ref sig .tc := ⟨.hbm, 57, rfl⟩
abbrev main_call1_v0 : Ref sig .tc := ⟨.hbm, 58, rfl⟩
abbrev main_v34 : Ref sig .tc := ⟨.hbm, 59, rfl⟩
abbrev main_c_7 : Ref sig .tc := ⟨.hbm, 60, rfl⟩
abbrev main_v35 : Ref sig .tc := ⟨.hbm, 61, rfl⟩
abbrev main_v36 : Ref sig .tc := ⟨.hbm, 62, rfl⟩
abbrev main_c_8 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_9 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_call2_cst : Ref sig .tc := ⟨.hbm, 82, rfl⟩
abbrev main_call2_v0 : Ref sig .tc := ⟨.hbm, 83, rfl⟩
abbrev main_v54 : Ref sig .tc := ⟨.hbm, 84, rfl⟩
abbrev main_c_10 : Ref sig .tc := ⟨.hbm, 85, rfl⟩
abbrev main_v55 : Ref sig .tc := ⟨.hbm, 86, rfl⟩
abbrev main_v56 : Ref sig .tc := ⟨.hbm, 87, rfl⟩
abbrev main_c_11 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_12 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.HostChain.lean ====
/-
  The host side that both programs share, as named functions of the edge list and of the features.

  The edge list is a [2, 1600000] integer array: row 0 holds each edge's source node, row 1 its destination. The
  degree of a node is the number of edges that end at it (a scatter-add of ones by destination); its inverse is
  1 / max(degree, 1) where the degree is positive and 0 elsewhere. The neighbour mean of features h gathers h's row at
  every edge's source (a negative source first has the node count added, as the array indexing does), scatter-adds the
  gathered rows by destination, and scales row r by the inverse degree of r. None of these operations is opened by
  the proof: the kernel's program and the reference apply the very same ones.
-/
import proofs.«163801_j14594298872163_1_alg».proof.Proof.Gen.KernelIdeal

noncomputable section

namespace Cert.KernelIdeal.HostChain

open Cert.KernelIdeal Cert.KernelIdeal.Gen Idealize.ShloMosaic

variable {F : FTy → Type} [FloatOps F]

/-- Each edge's source node: row 0 of the edge list. -/
def src (ei : (⟨S2x1600000, .i32⟩ : BufTy).Contents (Elt F)) : (⟨S1600000, .i32⟩ : BufTy).Contents (Elt F) :=
  shapeCast S1600000 (extractStridedSlice S1x1600000 ![0, 0] ei slices_S2x1600000_S1x1600000_0_0) shapeCasts_S1x1600000_S1600000

/-- Each edge's destination node: row 1 of the edge list. -/
def dst (ei : (⟨S2x1600000, .i32⟩ : BufTy).Contents (Elt F)) : (⟨S1600000, .i32⟩ : BufTy).Contents (Elt F) :=
  shapeCast S1600000 (extractStridedSlice S1x1600000 ![1, 0] ei slices_S2x1600000_S1x1600000_1_0) shapeCasts_S1x1600000_S1600000

/-- The degree of every node: ones scatter-added by destination into zeros. -/
def deg (ei : (⟨S2x1600000, .i32⟩ : BufTy).Contents (Elt F)) : (⟨S100000, .f32⟩ : BufTy).Contents (Elt F) :=
  Host.scatterAdd scatter_S100000_S1600000x1_S1600000_n_0_0_1
    (broadcastInDim S100000 ![] bcast_S_S100000 (constant S_ .f32 0x00000000#32))
    (broadcastInDim S1600000x1 ![0] bcast_S1600000_S1600000x1_0 (dst (F := F) ei))
    (broadcastInDim S1600000 ![] bcast_S_S1600000 (constant S_ .f32 0x3F800000#32))

/-- The inverse degree: 1 / max(degree, 1) where the degree is positive, 0 elsewhere. -/
def dinv (ei : (⟨S2x1600000, .i32⟩ : BufTy).Contents (Elt F)) : (⟨S100000, .f32⟩ : BufTy).Contents (Elt F) :=
  select (cmpf (F := F) .ogt (deg (F := F) ei) (broadcastInDim S100000 ![] bcast_S_S100000 (constant S_ .f32 0x00000000#32)))
    (Host.divf (broadcastInDim S100000 ![] bcast_S_S100000 (constant S_ .f32 0x3F800000#32))
      (maximumf (deg (F := F) ei) (broadcastInDim S100000 ![] bcast_S_S100000 (constant S_ .f32 0x3F800000#32))))
    (broadcastInDim S100000 ![] bcast_S_S100000 (id (constant S_ .f32 0x00000000#32)))

/-- The neighbour mean of the features h, from the edges' source row `s`, their destination row `d` and the nodes'
    inverse degrees `di`: gather h's rows at the sources, scatter-add them by destination, scale row r by `di r`. -/
def aggOf (s d : (⟨S1600000, .i32⟩ : BufTy).Contents (Elt F)) (di : (⟨S100000, .f32⟩ : BufTy).Contents (Elt F)) (h : (⟨S100000x128, .f32⟩ : BufTy).Contents (Elt F)) :
    (⟨S100000x128, .f32⟩ : BufTy).Contents (Elt F) :=
  mulf
    (Host.scatterAdd scatter_S100000x128_S1600000x1_S1600000x128_1_0_0_1
      (broadcastInDim S100000x128 ![] bcast_S_S100000x128 (constant S_ .f32 0x00000000#32))
      (broadcastInDim S1600000x1 ![0] bcast_S1600000_S1600000x1_0 d)
      (Host.gather gather_S100000x128_S1600000x1_S1600000x128_1_0_n_n_0_1_1128 h
        (broadcastInDim S1600000x1 ![0] bcast_S1600000_S1600000x1_0
          (select (cmpi .slt s (broadcastInDim S1600000 ![] bcast_S_S1600000 (constantI S_ 32 0#32)))
            (addi s (broadcastInDim S1600000 ![] bcast_S_S1600000 (constantI S_ 32 100000#32)))
            s))))
    (broadcastInDim S100000x128 ![0, 1] bcast_S100000x1_S100000x128_0_1
      (broadcastInDim S100000x1 ![0] bcast_S100000_S100000x1_0 di))

/-- The neighbour mean of the features h over the edge list `ei`. -/
def agg (ei : (⟨S2x1600000, .i32⟩ : BufTy).Contents (Elt F)) (h : (⟨S100000x128, .f32⟩ : BufTy).Contents (Elt F)) : (⟨S100000x128, .f32⟩ : BufTy).Contents (Elt F) :=
  aggOf (src (F := F) ei) (dst (F := F) ei) (dinv (F := F) ei) h

end Cert.KernelIdeal.HostChain

end
-- ==== Proof.Stretches.lean ====
/-
  What the host stretches of the kernel's program compute, at any float family and from any buffer contents V.

  Each lemma reads one result buffer after one stretch (the inverse degree: after the first two) as the named
  function of HostChain.lean applied to the contents V of the buffers the stretch reads. Stated before any float family
  is chosen, each is an unfolding of the operation list: an operation's result buffer holds its function of its
  operands' contents, every other buffer what it held.
-/
import proofs.«163801_j14594298872163_1_alg».proof.Proof.Gen.KernelIdeal.Launch
import proofs.«163801_j14594298872163_1_alg».proof.Proof.HostChain
import Idealize.ShloMosaic.Lib.StableHlo.Run

set_option maxRecDepth 16384

noncomputable section

namespace Cert.KernelIdeal.Stretches

open Cert.KernelIdeal Cert.KernelIdeal.Gen Idealize.ShloMosaic Idealize.ShloMosaic.TcCoe Idealize.SL.Sem
open Idealize.ShloMosaic.StableHlo Cert.KernelIdeal.HostChain

variable {F : FTy → Type} [FloatOps F] (V : Valuation τ sig (Elt F))

/-- The first stretch cuts the edges' source row out of the edge list. -/
theorem sources : StableHlo.after hostOps0 V (Proc.devRef .tc main_v1) = src (F := F) (V (Proc.devRef .tc main_arg2)) := by
  dsimp only [hostOps0]
  after_results_simp <;> rfl

/-- And their destination row. -/
theorem destinations : StableHlo.after hostOps0 V (Proc.devRef .tc main_v3) = dst (F := F) (V (Proc.devRef .tc main_arg2)) := by
  dsimp only [hostOps0]
  after_results_simp <;> rfl

/-- The first two stretches compute the inverse degree. -/
theorem inverse_degree :
    StableHlo.after hostOps0_1 (StableHlo.after hostOps0 V) (Proc.devRef .tc main_v14) = dinv (F := F) (V (Proc.devRef .tc main_arg2)) := by
  dsimp only [hostOps0, hostOps0_1]
  after_results_simp <;> (try simp only [TRef.ofBuf, TRef.toBuf, cast_eq]) <;> rfl

/-- The third stretch computes the neighbour mean of the input features. -/
theorem mean0 : StableHlo.after hostOps0_2 V (Proc.devRef .tc main_v27)
    = aggOf (F := F) (V (Proc.devRef .tc main_v1)) (V (Proc.devRef .tc main_v3)) (V (Proc.devRef .tc main_v14)) (V (Proc.devRef .tc main_arg1)) := by
  dsimp only [hostOps0_2]
  after_results_simp <;> rfl

/-- And lays the first bias out as a row. -/
theorem bias0 : StableHlo.after hostOps0_2 V (Proc.devRef .tc main_v28) = shapeCast S1x128 (V (Proc.devRef .tc main_arg5)) shapeCasts_S128_S1x128 := by
  dsimp only [hostOps0_2]
  after_results_simp <;> rfl

/-- The stretch after the first region computes the neighbour mean of that region's output. -/
theorem mean1 : StableHlo.after hostOps1 V (Proc.devRef .tc main_v42)
    = aggOf (F := F) (V (Proc.devRef .tc main_v1)) (V (Proc.devRef .tc main_v3)) (V (Proc.devRef .tc main_v14)) (V (Proc.devRef .tc main_v29)) := by
  dsimp only [hostOps1]
  after_results_simp <;> rfl

/-- And lays the second bias out as a row. -/
theorem bias1 : StableHlo.after hostOps1 V (Proc.devRef .tc main_v43) = shapeCast S1x128 (V (Proc.devRef .tc main_arg8)) shapeCasts_S128_S1x128 := by
  dsimp only [hostOps1]
  after_results_simp <;> rfl

/-- The stretch after the second region computes the neighbour mean of that region's output. -/
theorem mean2 : StableHlo.after hostOps2 V (Proc.devRef .tc main_v57)
    = aggOf (F := F) (V (Proc.devRef .tc main_v1)) (V (Proc.devRef .tc main_v3)) (V (Proc.devRef .tc main_v14)) (V (Proc.devRef .tc main_v44)) := by
  dsimp only [hostOps2]
  after_results_simp <;> rfl

/-- And lays the third bias out as a row. -/
theorem bias2 : StableHlo.after hostOps2 V (Proc.devRef .tc main_v58) = shapeCast S1x128 (V (Proc.devRef .tc main_arg11)) shapeCasts_S128_S1x128 := by
  dsimp only [hostOps2]
  after_results_simp <;> rfl

end Cert.KernelIdeal.Stretches

end
-- ==== Proof.EntriesA.lean ====
/-
  The buffers at the first region's entry, read back to the launch memory, at any float family.

  Three stretches of host operations run before the first region. The first cuts the edge list into its source and
  destination rows and computes the degree's pieces; the second (the inlined where) selects the inverse degree; the
  third computes the neighbour mean of the input features and lays the first bias out as a row (Stretches.lean). A
  buffer a stretch does not write is what it was, so the arguments are as launched at every boundary, and the edge rows
  and the inverse degree, once written, stay.
-/
import proofs.«163801_j14594298872163_1_alg».proof.Proof.Gen.KernelIdeal.Frame
import proofs.«163801_j14594298872163_1_alg».proof.Proof.Stretches

set_option maxRecDepth 16384

noncomputable section

namespace Cert.KernelIdeal.EntriesA

open Cert.KernelIdeal Cert.KernelIdeal.Gen Idealize.ShloMosaic Idealize.ShloMosaic.TcCoe Idealize.SL.Sem
open Idealize.ShloMosaic.StableHlo Cert.KernelIdeal.HostChain

variable {F : FTy → Type} [FloatOps F]
variable (m : (ℓ : Loc nD τ sig) → Buf (Elt F) ℓ) (ρ : Dev nD → PrngReg) (c : Dev nD)

/-- A stretch of host operations leaves a buffer none of them writes as it was. -/
local macro "not_written" ops:ident : tactic => `(tactic| (
  refine StableHlo.after_of_forall_not_mem _ _ (List.forall_iff_forall_mem.mp ?_)
  simp only [$ops:ident, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

/-! ## The arguments: no host operation writes one -/

/-- The float arguments the layers read: the input features, the six weight matrices and the three biases. -/
abbrev IsArg (b : Ref sig .tc) : Prop :=
  b = main_arg1 ∨ b = main_arg3 ∨ b = main_arg4 ∨ b = main_arg5 ∨ b = main_arg6 ∨ b = main_arg7 ∨ b = main_arg8
    ∨ b = main_arg9 ∨ b = main_arg10 ∨ b = main_arg11

/-- After the first two stretches each of them is as launched. -/
theorem W2_arg {b : Ref sig .tc} (hb : IsArg b) : W2 m ρ c (Proc.devRef .tc b) = m ((c.tc : Thread nD τ).loc b) := by
  rcases hb with rfl | rfl | rfl | rfl | rfl | rfl | rfl | rfl | rfl | rfl <;>
  exact (show W2 m ρ c _ = W1 m ρ c _ by not_written hostOps0_1).trans
    ((show W1 m ρ c _ = W0 m ρ c _ by not_written hostOps0).trans rfl)

/-- And after the third, at the first region's entry. -/
theorem W3_arg {b : Ref sig .tc} (hb : IsArg b) : W3 m ρ c (Proc.devRef .tc b) = m ((c.tc : Thread nD τ).loc b) := by
  rcases hb with rfl | rfl | rfl | rfl | rfl | rfl | rfl | rfl | rfl | rfl <;>
  exact (show W3 m ρ c _ = W2 m ρ c _ by not_written hostOps0_2).trans (W2_arg m ρ c (by decide))

/-! ## The edge rows and the inverse degree -/

theorem W1_v1 : W1 m ρ c (Proc.devRef .tc main_v1) = src (F := F) (m ((c.tc : Thread nD τ).loc main_arg2)) := Stretches.sources (W0 m ρ c)
theorem W1_v3 : W1 m ρ c (Proc.devRef .tc main_v3) = dst (F := F) (m ((c.tc : Thread nD τ).loc main_arg2)) := Stretches.destinations (W0 m ρ c)

theorem W2_v1 : W2 m ρ c (Proc.devRef .tc main_v1) = src (F := F) (m ((c.tc : Thread nD τ).loc main_arg2)) :=
  (show W2 m ρ c (Proc.devRef .tc main_v1) = W1 m ρ c (Proc.devRef .tc main_v1) by not_written hostOps0_1).trans (W1_v1 m ρ c)
theorem W2_v3 : W2 m ρ c (Proc.devRef .tc main_v3) = dst (F := F) (m ((c.tc : Thread nD τ).loc main_arg2)) :=
  (show W2 m ρ c (Proc.devRef .tc main_v3) = W1 m ρ c (Proc.devRef .tc main_v3) by not_written hostOps0_1).trans (W1_v3 m ρ c)
theorem W2_v14 : W2 m ρ c (Proc.devRef .tc main_v14) = dinv (F := F) (m ((c.tc : Thread nD τ).loc main_arg2)) := Stretches.inverse_degree (W0 m ρ c)

/-! ## At the first region's entry -/

theorem W3_v1 : W3 m ρ c (Proc.devRef .tc main_v1) = src (F := F) (m ((c.tc : Thread nD τ).loc main_arg2)) :=
  (show W3 m ρ c (Proc.devRef .tc main_v1) = W2 m ρ c (Proc.devRef .tc main_v1) by not_written hostOps0_2).trans (W2_v1 m ρ c)
theorem W3_v3 : W3 m ρ c (Proc.devRef .tc main_v3) = dst (F := F) (m ((c.tc : Thread nD τ).loc main_arg2)) :=
  (show W3 m ρ c (Proc.devRef .tc main_v3) = W2 m ρ c (Proc.devRef .tc main_v3) by not_written hostOps0_2).trans (W2_v3 m ρ c)
theorem W3_v14 : W3 m ρ c (Proc.devRef .tc main_v14) = dinv (F := F) (m ((c.tc : Thread nD τ).loc main_arg2)) :=
  (show W3 m ρ c (Proc.devRef .tc main_v14) = W2 m ρ c (Proc.devRef .tc main_v14) by not_written hostOps0_2).trans (W2_v14 m ρ c)

/-- The first region's first operand: the neighbour mean of the input features. -/
theorem W3_v27 : W3 m ρ c (Proc.devRef .tc main_v27) = agg (F := F) (m ((c.tc : Thread nD τ).loc main_arg2)) (m ((c.tc : Thread nD τ).loc main_arg1)) := by
  refine (Stretches.mean0 (W2 m ρ c)).trans ?_
  rw [W2_v1, W2_v3, W2_v14, W2_arg m ρ c (b := main_arg1) (by decide)]
  rfl

/-- The first region's bias operand: the first bias reshaped to a row. -/
theorem W3_v28 : W3 m ρ c (Proc.devRef .tc main_v28) = shapeCast S1x128 (m ((c.tc : Thread nD τ).loc main_arg5)) shapeCasts_S128_S1x128 := by
  refine (Stretches.bias0 (W2 m ρ c)).trans ?_
  rw [W2_arg m ρ c (b := main_arg5) (by decide)]

end Cert.KernelIdeal.EntriesA

end
-- ==== Proof.SageSpec.lean ====
/-
  One layer of the graph network, as a function on the extended reals, index by index.

  A layer takes, for every node (row) r, the mean of its neighbours' features and the node's own features, and
  returns, at feature (column) q,

      (sum over k of mean[r,k] * Wl[k,q]) + (sum over k of x[r,k] * Wr[k,q]) + b[q],

  the two matrix products added first and the bias last; the first two layers then take the maximum with 0.
  The bias is held as a [1,128] row. The number of rows is a parameter: a tile of 5000 rows of the kernel and the
  whole array of 100000 rows of the reference are the same function at two row counts, and a tile of the whole
  array's function is the tile's function of the operands' tiles (the sums run along a row only).
-/
import Idealize.ShloMosaic.PureOps.Ideal
import Idealize.ShloMosaic.Lib.ValueIdx

noncomputable section

namespace Cert.Sage

open Idealize.ShloMosaic

/-- Row r = i 0 of an [R,128] array at column k. -/
abbrev rowAt (R : Nat) (i : (⟨2, ![R, 128]⟩ : Shape).Idx) (k : Fin 128) : (⟨2, ![R, 128]⟩ : Shape).Idx := fun a => match a with
  | ⟨0, _⟩ => ⟨(i 0).val, (i 0).isLt⟩
  | ⟨1, _⟩ => ⟨k.val, k.isLt⟩

/-- Row k of a [128,128] weight matrix at the column i 1 of the output index. -/
abbrev colAt (R : Nat) (i : (⟨2, ![R, 128]⟩ : Shape).Idx) (k : Fin 128) : (⟨2, ![128, 128]⟩ : Shape).Idx := fun a => match a with
  | ⟨0, _⟩ => ⟨k.val, k.isLt⟩
  | ⟨1, _⟩ => ⟨(i 1).val, (i 1).isLt⟩

/-- The bias row's entry at the column i 1 of the output index. -/
abbrev biasAt (R : Nat) (i : (⟨2, ![R, 128]⟩ : Shape).Idx) : (⟨2, ![1, 128]⟩ : Shape).Idx := fun a => match a with
  | ⟨0, _⟩ => ⟨0, Nat.one_pos⟩
  | ⟨1, _⟩ => ⟨(i 1).val, (i 1).isLt⟩

/-- A layer before its activation: mean · Wl + x · Wr + b, at each index. -/
def pre (R : Nat) (mean x : FVec Ideal ⟨2, ![R, 128]⟩ .f32) (Wl Wr : FVec Ideal ⟨2, ![128, 128]⟩ .f32)
    (b : FVec Ideal ⟨2, ![1, 128]⟩ .f32) : FVec Ideal ⟨2, ![R, 128]⟩ .f32 :=
  fun i => ((∑ k : Fin 128, mean (rowAt R i k) * Wl (colAt R i k)) + (∑ k : Fin 128, x (rowAt R i k) * Wr (colAt R i k)))
    + b (biasAt R i)

/-- A layer with its activation: the maximum of the pre-activation and 0, at each index. -/
def act (R : Nat) (mean x : FVec Ideal ⟨2, ![R, 128]⟩ .f32) (Wl Wr : FVec Ideal ⟨2, ![128, 128]⟩ .f32)
    (b : FVec Ideal ⟨2, ![1, 128]⟩ .f32) : FVec Ideal ⟨2, ![R, 128]⟩ .f32 :=
  fun i => max (pre R mean x Wl Wr b i) 0

/-- The entry of a 128-vector that entry i of its [1,128] row layout reads: the column of i. -/
abbrev rowIdx (i : (⟨2, ![1, 128]⟩ : Shape).Idx) : (⟨1, ![128]⟩ : Shape).Idx := fun a => match a with
  | ⟨0, _⟩ => ⟨(i 1).val, (i 1).isLt⟩

/-- A 128-vector laid out as a [1,128] row. -/
def rowOf (b : FVec Ideal ⟨1, ![128]⟩ .f32) : FVec Ideal ⟨2, ![1, 128]⟩ .f32 :=
  fun i => b (rowIdx i)

/-- The whole network: three layers, the first two with their activation, each fed the neighbour means `agg h` of
    the features `h` it transforms (`agg` is the same function of the features on both sides: the gather along the
    edges, the scatter-add by destination node and the division by the degree, none of which is opened). -/
def net (agg : FVec Ideal ⟨2, ![100000, 128]⟩ .f32 → FVec Ideal ⟨2, ![100000, 128]⟩ .f32)
    (x : FVec Ideal ⟨2, ![100000, 128]⟩ .f32)
    (W1l W1r : FVec Ideal ⟨2, ![128, 128]⟩ .f32) (b1 : FVec Ideal ⟨1, ![128]⟩ .f32)
    (W2l W2r : FVec Ideal ⟨2, ![128, 128]⟩ .f32) (b2 : FVec Ideal ⟨1, ![128]⟩ .f32)
    (W3l W3r : FVec Ideal ⟨2, ![128, 128]⟩ .f32) (b3 : FVec Ideal ⟨1, ![128]⟩ .f32) : FVec Ideal ⟨2, ![100000, 128]⟩ .f32 :=
  let h1 := act 100000 (agg x) x W1l W1r (rowOf b1)
  let h2 := act 100000 (agg h1) h1 W2l W2r (rowOf b2)
  pre 100000 (agg h2) h2 W3l W3r (rowOf b3)

end Cert.Sage

end
-- ==== Proof.TileValue.lean ====
/-
  What the kernel's body computes on one tile of 5000 rows, read at an index, at the extended reals.

  The body loads a tile of the neighbour means, a tile of the node features, the two 128x128 weight matrices and the
  bias row; narrows the four matrices to bf16 (the identity on extended reals); multiplies tile by weight twice, each
  into a zero accumulator (so each product's entry (r,q) is the plain sum over k of a[r,k] * w[k,q]); adds the two
  products, then the bias row broadcast down the rows; and, in the first two layers, takes the maximum with 0. That
  is the layer function of SageSpec.lean at 5000 rows.

  The last lemmas compare a tile's value with the whole array's: the layer function at an index only reads row i 0
  of its two data operands, column i 1 of its weights and of its bias, so two instances agree at two indices as soon
  as those entries agree.
-/
import proofs.«163801_j14594298872163_1_alg».proof.Proof.Gen.KernelIdeal.Skeleton
import proofs.«163801_j14594298872163_1_alg».proof.Proof.SageSpec
import Idealize.ShloMosaic.Lib.Pipeline.Value
import Idealize.ShloMosaic.Lib.ValueIdx
import Idealize.ShloMosaic.PureOps.Ideal.Laws

noncomputable section

namespace Cert.KernelIdeal.TileValue

open Cert.KernelIdeal Cert.KernelIdeal.Gen Idealize.ShloMosaic Idealize.ShloMosaic.ValueIdx Cert.Sage

/-! ## The tile's matrix product: which entries of its operands an output entry reads -/

theorem lhs_tile_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_tile_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_tile_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_tile_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A tile times a weight matrix into a zero accumulator, at entry i = (r, q): the sum over k of a[r,k] * w[k,q]. -/
theorem tile_matmul_apply (a : FVec Ideal S5000x128 .bf16) (w : FVec Ideal S128x128 .bf16) (i : S5000x128.Idx) :
    matmul dot_S5000x128_S128x128_S5000x128_1_0_0_1_n_n none a w (constant (F := Ideal) S5000x128 .f32 0x00000000#32) i
      = ∑ k : Fin 128, a (rowAt 5000 i k) * w (colAt 5000 i k) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx i ((ValueIdx.contrEquiv1 dot_S5000x128_S128x128_S5000x128_1_0_0_1_n_n 128 rfl rfl).symm k) = rowAt 5000 i k := funext fun a => Fin.ext (by
    match a with
    | ⟨0, _⟩ => exact lhs_tile_0 _ _
    | ⟨1, _⟩ => exact (lhs_tile_1 _ _).trans hk)
  have er : dot_S5000x128_S128x128_S5000x128_1_0_0_1_n_n.rhsIdx i ((ValueIdx.contrEquiv1 dot_S5000x128_S128x128_S5000x128_1_0_0_1_n_n 128 rfl rfl).symm k) = colAt 5000 i k := funext fun a => Fin.ext (by
    match a with
    | ⟨0, _⟩ => exact (rhs_tile_0 _ _).trans hk
    | ⟨1, _⟩ => exact rhs_tile_1 _ _)
  rw [el, er]

/-- The bias row, broadcast down the tile's rows, at entry i = (r, q): the row's entry q. -/
theorem tile_bias_apply (b : FVec Ideal S1x128 .f32) (i : S5000x128.Idx) :
    broadcastTo S5000x128 (shapeCast S1x128 b shapeCasts_S1x128_S1x128) broadcasts_S1x128_S5000x128 i = b (biasAt 5000 i) := by
  rw [shapeCast_self]
  exact broadcastTo_apply b broadcasts_S1x128_S5000x128 i (biasAt 5000 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

/-! ## The three bodies' stored values -/

/-- The first layer's body stores the layer function, with its activation, of the loaded tiles. -/
theorem pay0_apply (x0 x1 : Vec Ideal S5000x128 .f32) (x2 x3 : Vec Ideal S128x128 .f32) (x4 : Vec Ideal S1x128 .f32) (i : S5000x128.Idx) :
    k0_pay1 (F := Ideal) x0 x1 x2 x3 x4 i = act 5000 x0 x1 x2 x3 x4 i := by
  show max ((matmul dot_S5000x128_S128x128_S5000x128_1_0_0_1_n_n none (truncf .bf16 (shapeCast S5000x128 x0 shapeCasts_S5000x128_S5000x128) bitsLt_bf16_f32) (truncf .bf16 x2 bitsLt_bf16_f32) (constant (F := Ideal) S5000x128 .f32 0x00000000#32) i
        + matmul dot_S5000x128_S128x128_S5000x128_1_0_0_1_n_n none (truncf .bf16 x1 bitsLt_bf16_f32) (truncf .bf16 x3 bitsLt_bf16_f32) (constant (F := Ideal) S5000x128 .f32 0x00000000#32) i)
      + broadcastTo S5000x128 (shapeCast S1x128 x4 shapeCasts_S1x128_S1x128) broadcasts_S1x128_S5000x128 i) (Ideal.ofBits .f32 0x00000000#32) = _
  rw [tile_matmul_apply, tile_matmul_apply, tile_bias_apply, Ideal.ofBits_zero_f32]
  simp only [truncf_apply, shapeCast_self]
  rfl

/-- The second layer's body (its second tile also passes through an identity recast) stores the same function. -/
theorem pay1_apply (x0 x1 : Vec Ideal S5000x128 .f32) (x2 x3 : Vec Ideal S128x128 .f32) (x4 : Vec Ideal S1x128 .f32) (i : S5000x128.Idx) :
    k1_pay1 (F := Ideal) x0 x1 x2 x3 x4 i = act 5000 x0 x1 x2 x3 x4 i := by
  show max ((matmul dot_S5000x128_S128x128_S5000x128_1_0_0_1_n_n none (truncf .bf16 (shapeCast S5000x128 x0 shapeCasts_S5000x128_S5000x128) bitsLt_bf16_f32) (truncf .bf16 x2 bitsLt_bf16_f32) (constant (F := Ideal) S5000x128 .f32 0x00000000#32) i
        + matmul dot_S5000x128_S128x128_S5000x128_1_0_0_1_n_n none (truncf .bf16 (shapeCast S5000x128 x1 shapeCasts_S5000x128_S5000x128) bitsLt_bf16_f32) (truncf .bf16 x3 bitsLt_bf16_f32) (constant (F := Ideal) S5000x128 .f32 0x00000000#32) i)
      + broadcastTo S5000x128 (shapeCast S1x128 x4 shapeCasts_S1x128_S1x128) broadcasts_S1x128_S5000x128 i) (Ideal.ofBits .f32 0x00000000#32) = _
  rw [tile_matmul_apply, tile_matmul_apply, tile_bias_apply, Ideal.ofBits_zero_f32]
  simp only [truncf_apply, shapeCast_self]
  rfl

/-- The last layer's body stores the layer function without an activation. -/
theorem pay2_apply (x0 x1 : Vec Ideal S5000x128 .f32) (x2 x3 : Vec Ideal S128x128 .f32) (x4 : Vec Ideal S1x128 .f32) (i : S5000x128.Idx) :
    k2_pay1 (F := Ideal) x0 x1 x2 x3 x4 i = pre 5000 x0 x1 x2 x3 x4 i := by
  show (matmul dot_S5000x128_S128x128_S5000x128_1_0_0_1_n_n none (truncf .bf16 (shapeCast S5000x128 x0 shapeCasts_S5000x128_S5000x128) bitsLt_bf16_f32) (truncf .bf16 x2 bitsLt_bf16_f32) (constant (F := Ideal) S5000x128 .f32 0x00000000#32) i
        + matmul dot_S5000x128_S128x128_S5000x128_1_0_0_1_n_n none (truncf .bf16 (shapeCast S5000x128 x1 shapeCasts_S5000x128_S5000x128) bitsLt_bf16_f32) (truncf .bf16 x3 bitsLt_bf16_f32) (constant (F := Ideal) S5000x128 .f32 0x00000000#32) i)
      + broadcastTo S5000x128 (shapeCast S1x128 x4 shapeCasts_S1x128_S1x128) broadcasts_S1x128_S5000x128 i = _
  rw [tile_matmul_apply, tile_matmul_apply, tile_bias_apply]
  simp only [truncf_apply, shapeCast_self]
  rfl

/-! ## Two instances of the layer function that read equal entries are equal there -/

theorem pre_congr {R R' : Nat} (mean x : FVec Ideal ⟨2, ![R, 128]⟩ .f32) (Wl Wr : FVec Ideal ⟨2, ![128, 128]⟩ .f32) (b : FVec Ideal ⟨2, ![1, 128]⟩ .f32)
    (mean' x' : FVec Ideal ⟨2, ![R', 128]⟩ .f32) (Wl' Wr' : FVec Ideal ⟨2, ![128, 128]⟩ .f32) (b' : FVec Ideal ⟨2, ![1, 128]⟩ .f32)
    (i : (⟨2, ![R, 128]⟩ : Shape).Idx) (i' : (⟨2, ![R', 128]⟩ : Shape).Idx)
    (hm : ∀ k, mean (rowAt R i k) = mean' (rowAt R' i' k)) (hx : ∀ k, x (rowAt R i k) = x' (rowAt R' i' k))
    (hl : ∀ k, Wl (colAt R i k) = Wl' (colAt R' i' k)) (hr : ∀ k, Wr (colAt R i k) = Wr' (colAt R' i' k))
    (hb : b (biasAt R i) = b' (biasAt R' i')) :
    pre R mean x Wl Wr b i = pre R' mean' x' Wl' Wr' b' i' := by
  unfold pre
  simp only [hm, hx, hl, hr, hb]

theorem act_congr {R R' : Nat} (mean x : FVec Ideal ⟨2, ![R, 128]⟩ .f32) (Wl Wr : FVec Ideal ⟨2, ![128, 128]⟩ .f32) (b : FVec Ideal ⟨2, ![1, 128]⟩ .f32)
    (mean' x' : FVec Ideal ⟨2, ![R', 128]⟩ .f32) (Wl' Wr' : FVec Ideal ⟨2, ![128, 128]⟩ .f32) (b' : FVec Ideal ⟨2, ![1, 128]⟩ .f32)
    (i : (⟨2, ![R, 128]⟩ : Shape).Idx) (i' : (⟨2, ![R', 128]⟩ : Shape).Idx)
    (hm : ∀ k, mean (rowAt R i k) = mean' (rowAt R' i' k)) (hx : ∀ k, x (rowAt R i k) = x' (rowAt R' i' k))
    (hl : ∀ k, Wl (colAt R i k) = Wl' (colAt R' i' k)) (hr : ∀ k, Wr (colAt R i k) = Wr' (colAt R' i' k))
    (hb : b (biasAt R i) = b' (biasAt R' i')) :
    act R mean x Wl Wr b i = act R' mean' x' Wl' Wr' b' i' :=
  congrArg (max · 0) (pre_congr mean x Wl Wr b mean' x' Wl' Wr' b' i i' hm hx hl hr hb)

end Cert.KernelIdeal.TileValue

end
-- ==== Proof.Layer0.lean ====
/-
  Region 0 of the kernel's program (its first pallas_call), at any contents V of the buffers when the region is entered:
  the output array after the region is the layer function (with its activation) of the five arrays the region reads.

  The grid has 20 points; point t works on rows 5000 t .. 5000 t + 4999: the two data windows and the output window
  take block (t, 0), the weights and the bias row are whole-array blocks (0, 0). What point t writes back is the
  body's stored value on the blocks at t, which is the tile function of those blocks (TileValue.lean); a tile's entry
  (r, q) only reads row r of the data tiles, and row r of the tile at t is row 5000 t + r of the array, so the
  written-back block is block t of the whole array's layer function. The 20 blocks cover every row (row i lies in
  the block of point i / 5000), so the array ends holding that function.
-/
import proofs.«163801_j14594298872163_1_alg».proof.Proof.Gen.KernelIdeal.Frame
import proofs.«163801_j14594298872163_1_alg».proof.Proof.TileValue

set_option maxRecDepth 16384

noncomputable section

namespace Cert.KernelIdeal.Layer0

open Cert.KernelIdeal Cert.KernelIdeal.Gen Idealize.ShloMosaic Idealize.ShloMosaic.TcCoe Idealize.SL.Sem
open Cert.Sage Cert.KernelIdeal.TileValue
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the data windows and the output move together down the rows, the weights
    and the bias stay at block (0, 0), and the output's row block at point t is t. -/
theorem idx_facts : ∀ t : Fin cfg0.N,
      win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The whole array's layer function of the arrays the region reads, as it finds them. -/
abbrev out (c : Dev nD) : FVec Ideal S100000x128 .f32 :=
  act 100000 (V c main_v27) (V c main_arg1) (V c main_arg3) (V c main_arg4) (V c main_v28)

/-- What point t writes back is block t of the whole array's layer function. -/
theorem flushed_eq (c : Dev nD) (t : Fin cfg0.N) :
    (dat0 V c).flushed 5 t = ((cfg0.win 5).blk t).view.read (Elt Ideal) (out V c) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51⟩ := idx_facts t
  funext j
  show k0_pay1 (F := Ideal) (iblk0 V c 0 t) (iblk0 V c 1 t) (iblk0 V c 2 t) (iblk0 V c 3 t) (iblk0 V c 4 t) j
    = act 100000 (V c main_v27) (V c main_arg1) (V c main_arg3) (V c main_arg4) (V c main_v28) (((cfg0.win 5).blk t).view.emb j)
  refine (pay0_apply (iblk0 V c 0 t) (iblk0 V c 1 t) (iblk0 V c 2 t) (iblk0 V c 3 t) (iblk0 V c 4 t) j).trans ?_
  refine act_congr (iblk0 V c 0 t) (iblk0 V c 1 t) (iblk0 V c 2 t) (iblk0 V c 3 t) (iblk0 V c 4 t)
    (V c main_v27) (V c main_arg1) (V c main_arg3) (V c main_arg4) (V c main_v28) j (((cfg0.win 5).blk t).view.emb j)
    (fun k => ?_) (fun k => ?_) (fun k => ?_) (fun k => ?_) ?_
  · show V c main_v27 (((cfg0.win 0).blk t).view.emb (rowAt 5000 j k)) = V c main_v27 (rowAt 100000 (((cfg0.win 5).blk t).view.emb j) k)
    refine congrArg _ (funext fun a => Fin.ext ?_)
    match a with
    | ⟨0, _⟩ => show win0_0.index t (0 : Fin 2) * 5000 + 1 * (j 0).val = win0_5.index t (0 : Fin 2) * 5000 + 1 * (j 0).val; omega
    | ⟨1, _⟩ => show win0_0.index t (1 : Fin 2) * 128 + 1 * k.val = k.val; omega
  · show V c main_arg1 (((cfg0.win 1).blk t).view.emb (rowAt 5000 j k)) = V c main_arg1 (rowAt 100000 (((cfg0.win 5).blk t).view.emb j) k)
    refine congrArg _ (funext fun a => Fin.ext ?_)
    match a with
    | ⟨0, _⟩ => show win0_1.index t (0 : Fin 2) * 5000 + 1 * (j 0).val = win0_5.index t (0 : Fin 2) * 5000 + 1 * (j 0).val; omega
    | ⟨1, _⟩ => show win0_1.index t (1 : Fin 2) * 128 + 1 * k.val = k.val; omega
  · show V c main_arg3 (((cfg0.win 2).blk t).view.emb (colAt 5000 j k)) = V c main_arg3 (colAt 100000 (((cfg0.win 5).blk t).view.emb j) k)
    refine congrArg _ (funext fun a => Fin.ext ?_)
    match a with
    | ⟨0, _⟩ => show win0_2.index t (0 : Fin 2) * 128 + 1 * k.val = k.val; omega
    | ⟨1, _⟩ => show win0_2.index t (1 : Fin 2) * 128 + 1 * (j 1).val = win0_5.index t (1 : Fin 2) * 128 + 1 * (j 1).val; omega
  · show V c main_arg4 (((cfg0.win 3).blk t).view.emb (colAt 5000 j k)) = V c main_arg4 (colAt 100000 (((cfg0.win 5).blk t).view.emb j) k)
    refine congrArg _ (funext fun a => Fin.ext ?_)
    match a with
    | ⟨0, _⟩ => show win0_3.index t (0 : Fin 2) * 128 + 1 * k.val = k.val; omega
    | ⟨1, _⟩ => show win0_3.index t (1 : Fin 2) * 128 + 1 * (j 1).val = win0_5.index t (1 : Fin 2) * 128 + 1 * (j 1).val; omega
  · show V c main_v28 (((cfg0.win 4).blk t).view.emb (biasAt 5000 j)) = V c main_v28 (biasAt 100000 (((cfg0.win 5).blk t).view.emb j))
    refine congrArg _ (funext fun a => Fin.ext ?_)
    match a with
    | ⟨0, _⟩ => show win0_4.index t (0 : Fin 2) * 1 + 1 * 0 = 0; omega
    | ⟨1, _⟩ => show win0_4.index t (1 : Fin 2) * 128 + 1 * (j 1).val = win0_5.index t (1 : Fin 2) * 128 + 1 * (j 1).val; omega

/-- An index of the array is in point t's block iff each coordinate is in the block's range on its axis. -/
theorem mem_blk (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v29).slice (win0_5.rect t)).set ↔ _
  rw [View.set_slice_whole, Rect.mem_set_unit]
  exact Iff.rfl

/-- Every index of the array lies in the block of the point its row falls to. -/
theorem cover (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  refine ⟨⟨(i 0).val / 5000, by rw [hN]; omega⟩, flush0_5 _, ?_⟩
  rw [mem_blk]
  obtain ⟨-, -, -, -, -, -, -, -, -, -, e50, e51⟩ := idx_facts ⟨(i 0).val / 5000, by rw [hN]; omega⟩
  intro a
  match a with
  | ⟨0, _⟩ =>
    show win0_5.index ⟨(i 0).val / 5000, _⟩ (0 : Fin 2) * 5000 ≤ (i 0).val ∧ (i 0).val < win0_5.index ⟨(i 0).val / 5000, _⟩ (0 : Fin 2) * 5000 + 5000
    rw [e50]; show (i 0).val / 5000 * 5000 ≤ (i 0).val ∧ (i 0).val < (i 0).val / 5000 * 5000 + 5000; omega
  | ⟨1, _⟩ =>
    show win0_5.index ⟨(i 0).val / 5000, _⟩ (1 : Fin 2) * 128 ≤ (i 1).val ∧ (i 1).val < win0_5.index ⟨(i 0).val / 5000, _⟩ (1 : Fin 2) * 128 + 128
    rw [e51]; omega

/-- The output array after the region: the layer function of the arrays the region reads. -/
theorem final (c : Dev nD) : (dat0 V c).arrAt 5 cfg0.N = out V c :=
  (dat0 V c).arrAt_eq_of_cover 5 (out V c) (fun t _ => flushed_eq V c t) (cover)

end Cert.KernelIdeal.Layer0

end
-- ==== Proof.EntriesB.lean ====
/-
  Through the first region and the stretch after it: the buffers at the second region's entry.

  The first region leaves every buffer but its own six arrays as entered, and its output array at the first layer's
  function of its inputs (Layer0.lean), which at the entry values of EntriesA.lean is the first layer of the network:
  `feat1`. The stretch after it computes the neighbour mean of `feat1` with the same edge rows and inverse degree, and lays
  the second bias out as a row.
-/
import proofs.«163801_j14594298872163_1_alg».proof.Proof.EntriesA
import proofs.«163801_j14594298872163_1_alg».proof.Proof.Layer0
import Idealize.ShloMosaic.Lib.Pipeline.Value

set_option maxRecDepth 16384

noncomputable section

namespace Cert.KernelIdeal.EntriesB

open Cert.KernelIdeal Cert.KernelIdeal.Gen Idealize.ShloMosaic Idealize.ShloMosaic.TcCoe Idealize.SL.Sem
open Idealize.ShloMosaic.StableHlo Cert.KernelIdeal.HostChain Cert.Sage Cert.KernelIdeal.EntriesA

variable (m : (ℓ : Loc nD τ sig) → Buf (Elt Ideal) ℓ) (ρ : Dev nD → PrngReg) (c : Dev nD)

/-- A stretch of host operations leaves a buffer none of them writes as it was. -/
local macro "not_written" ops:ident : tactic => `(tactic| (
  refine StableHlo.after_of_forall_not_mem _ _ (List.forall_iff_forall_mem.mp ?_)
  simp only [$ops:ident, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

/-- The reshape of a 128-vector to a [1,128] row is the row layout of SageSpec.lean. -/
theorem bias_row (b : FVec Ideal S128 .f32) (h : S128.ShapeCasts S1x128) : shapeCast S1x128 b h = rowOf b := by
  funext i
  refine shapeCast_apply b h i (rowIdx i) ?_
  rw [Shape.rowMajor_val_two, Shape.rowMajor_val_one]
  show (i 1).val = (i 0).val * 128 + (i 1).val
  have h0 : (i 0).val < 1 := (i 0).isLt
  omega

/-- The arguments the second and third layers read. -/
abbrev IsLaterArg (b : Ref sig .tc) : Prop :=
  b = main_arg6 ∨ b = main_arg7 ∨ b = main_arg8 ∨ b = main_arg9 ∨ b = main_arg10 ∨ b = main_arg11

/-- The features after the first layer. -/
def feat1 : FVec Ideal ⟨2, ![100000, 128]⟩ .f32 :=
  act 100000 (agg (F := Ideal) (m ((c.tc : Thread nD τ).loc main_arg2)) (m ((c.tc : Thread nD τ).loc main_arg1))) (m ((c.tc : Thread nD τ).loc main_arg1)) (m ((c.tc : Thread nD τ).loc main_arg3)) (m ((c.tc : Thread nD τ).loc main_arg4)) (rowOf (m ((c.tc : Thread nD τ).loc main_arg5)))

/-! ## At the first region's exit -/

theorem W4_arg {b : Ref sig .tc} (hb : IsLaterArg b) : W4 m ρ c (Proc.devRef .tc b) = m ((c.tc : Thread nD τ).loc b) := by
  rcases hb with rfl | rfl | rfl | rfl | rfl | rfl <;>
  exact (W4_of_ne m ρ c _ (by decide)).trans (W3_arg m ρ c (by decide))

theorem W4_v1 : W4 m ρ c (Proc.devRef .tc main_v1) = src (F := Ideal) (m ((c.tc : Thread nD τ).loc main_arg2)) :=
  (W4_of_ne m ρ c main_v1 (by decide)).trans (W3_v1 m ρ c)
theorem W4_v3 : W4 m ρ c (Proc.devRef .tc main_v3) = dst (F := Ideal) (m ((c.tc : Thread nD τ).loc main_arg2)) :=
  (W4_of_ne m ρ c main_v3 (by decide)).trans (W3_v3 m ρ c)
theorem W4_v14 : W4 m ρ c (Proc.devRef .tc main_v14) = dinv (F := Ideal) (m ((c.tc : Thread nD τ).loc main_arg2)) :=
  (W4_of_ne m ρ c main_v14 (by decide)).trans (W3_v14 m ρ c)

/-- The first region's output array holds the first layer's features. -/
theorem W4_v29 : W4 m ρ c (Proc.devRef .tc main_v29) = feat1 m c := by
  refine ((W4_arr m ρ c 5).trans (Layer0.final (V3 m ρ) c)).trans ?_
  show act 100000 (W3 m ρ c (Proc.devRef .tc main_v27)) (W3 m ρ c (Proc.devRef .tc main_arg1)) (W3 m ρ c (Proc.devRef .tc main_arg3))
      (W3 m ρ c (Proc.devRef .tc main_arg4)) (W3 m ρ c (Proc.devRef .tc main_v28)) = _
  rw [W3_v27, W3_arg m ρ c (b := main_arg1) (by decide), W3_arg m ρ c (b := main_arg3) (by decide),
    W3_arg m ρ c (b := main_arg4) (by decide), W3_v28, bias_row]
  rfl

/-! ## At the second region's entry -/

theorem W5_arg {b : Ref sig .tc} (hb : IsLaterArg b) : W5 m ρ c (Proc.devRef .tc b) = m ((c.tc : Thread nD τ).loc b) := by
  rcases hb with rfl | rfl | rfl | rfl | rfl | rfl <;>
  exact (show W5 m ρ c _ = W4 m ρ c _ by not_written hostOps1).trans (W4_arg m ρ c (by decide))

theorem W5_v1 : W5 m ρ c (Proc.devRef .tc main_v1) = src (F := Ideal) (m ((c.tc : Thread nD τ).loc main_arg2)) :=
  (show W5 m ρ c (Proc.devRef .tc main_v1) = W4 m ρ c (Proc.devRef .tc main_v1) by not_written hostOps1).trans (W4_v1 m ρ c)
theorem W5_v3 : W5 m ρ c (Proc.devRef .tc main_v3) = dst (F := Ideal) (m ((c.tc : Thread nD τ).loc main_arg2)) :=
  (show W5 m ρ c (Proc.devRef .tc main_v3) = W4 m ρ c (Proc.devRef .tc main_v3) by not_written hostOps1).trans (W4_v3 m ρ c)
theorem W5_v14 : W5 m ρ c (Proc.devRef .tc main_v14) = dinv (F := Ideal) (m ((c.tc : Thread nD τ).loc main_arg2)) :=
  (show W5 m ρ c (Proc.devRef .tc main_v14) = W4 m ρ c (Proc.devRef .tc main_v14) by not_written hostOps1).trans (W4_v14 m ρ c)
theorem W5_v29 : W5 m ρ c (Proc.devRef .tc main_v29) = feat1 m c :=
  (show W5 m ρ c (Proc.devRef .tc main_v29) = W4 m ρ c (Proc.devRef .tc main_v29) by not_written hostOps1).trans (W4_v29 m ρ c)

/-- The second region's first operand: the neighbour mean of the first layer's features. -/
theorem W5_v42 : W5 m ρ c (Proc.devRef .tc main_v42) = agg (F := Ideal) (m ((c.tc : Thread nD τ).loc main_arg2)) (feat1 m c) := by
  refine (Stretches.mean1 (W4 m ρ c)).trans ?_
  rw [W4_v1, W4_v3, W4_v14, W4_v29]
  rfl

/-- The second region's bias operand: the second bias as a row. -/
theorem W5_v43 : W5 m ρ c (Proc.devRef .tc main_v43) = rowOf (m ((c.tc : Thread nD τ).loc main_arg8)) := by
  refine (Stretches.bias1 (W4 m ρ c)).trans ?_
  rw [W4_arg m ρ c (b := main_arg8) (by decide)]
  exact bias_row _ _

end Cert.KernelIdeal.EntriesB

end
-- ==== Proof.Layer1.lean ====
/-
  Region 1 of the kernel's program (its second pallas_call), at any contents V of the buffers when the region is entered:
  the output array after the region is the layer function (with its activation) of the five arrays the region reads.

  The grid has 20 points; point t works on rows 5000 t .. 5000 t + 4999: the two data windows and the output window
  take block (t, 0), the weights and the bias row are whole-array blocks (0, 0). What point t writes back is the
  body's stored value on the blocks at t, which is the tile function of those blocks (TileValue.lean); a tile's entry
  (r, q) only reads row r of the data tiles, and row r of the tile at t is row 5000 t + r of the array, so the
  written-back block is block t of the whole array's layer function. The 20 blocks cover every row (row i lies in
  the block of point i / 5000), so the array ends holding that function.
-/
import proofs.«163801_j14594298872163_1_alg».proof.Proof.Gen.KernelIdeal.Frame
import proofs.«163801_j14594298872163_1_alg».proof.Proof.TileValue

set_option maxRecDepth 16384

noncomputable section

namespace Cert.KernelIdeal.Layer1

open Cert.KernelIdeal Cert.KernelIdeal.Gen Idealize.ShloMosaic Idealize.ShloMosaic.TcCoe Idealize.SL.Sem
open Cert.Sage Cert.KernelIdeal.TileValue
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the data windows and the output move together down the rows, the weights
    and the bias stay at block (0, 0), and the output's row block at point t is t. -/
theorem idx_facts : ∀ t : Fin cfg1.N,
      win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The whole array's layer function of the arrays the region reads, as it finds them. -/
abbrev out (c : Dev nD) : FVec Ideal S100000x128 .f32 :=
  act 100000 (V c main_v42) (V c main_v29) (V c main_arg6) (V c main_arg7) (V c main_v43)

/-- What point t writes back is block t of the whole array's layer function. -/
theorem flushed_eq (c : Dev nD) (t : Fin cfg1.N) :
    (dat1 V c).flushed 5 t = ((cfg1.win 5).blk t).view.read (Elt Ideal) (out V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51⟩ := idx_facts t
  funext j
  show k1_pay1 (F := Ideal) (iblk1 V c 0 t) (iblk1 V c 1 t) (iblk1 V c 2 t) (iblk1 V c 3 t) (iblk1 V c 4 t) j
    = act 100000 (V c main_v42) (V c main_v29) (V c main_arg6) (V c main_arg7) (V c main_v43) (((cfg1.win 5).blk t).view.emb j)
  refine (pay1_apply (iblk1 V c 0 t) (iblk1 V c 1 t) (iblk1 V c 2 t) (iblk1 V c 3 t) (iblk1 V c 4 t) j).trans ?_
  refine act_congr (iblk1 V c 0 t) (iblk1 V c 1 t) (iblk1 V c 2 t) (iblk1 V c 3 t) (iblk1 V c 4 t)
    (V c main_v42) (V c main_v29) (V c main_arg6) (V c main_arg7) (V c main_v43) j (((cfg1.win 5).blk t).view.emb j)
    (fun k => ?_) (fun k => ?_) (fun k => ?_) (fun k => ?_) ?_
  · show V c main_v42 (((cfg1.win 0).blk t).view.emb (rowAt 5000 j k)) = V c main_v42 (rowAt 100000 (((cfg1.win 5).blk t).view.emb j) k)
    refine congrArg _ (funext fun a => Fin.ext ?_)
    match a with
    | ⟨0, _⟩ => show win1_0.index t (0 : Fin 2) * 5000 + 1 * (j 0).val = win1_5.index t (0 : Fin 2) * 5000 + 1 * (j 0).val; omega
    | ⟨1, _⟩ => show win1_0.index t (1 : Fin 2) * 128 + 1 * k.val = k.val; omega
  · show V c main_v29 (((cfg1.win 1).blk t).view.emb (rowAt 5000 j k)) = V c main_v29 (rowAt 100000 (((cfg1.win 5).blk t).view.emb j) k)
    refine congrArg _ (funext fun a => Fin.ext ?_)
    match a with
    | ⟨0, _⟩ => show win1_1.index t (0 : Fin 2) * 5000 + 1 * (j 0).val = win1_5.index t (0 : Fin 2) * 5000 + 1 * (j 0).val; omega
    | ⟨1, _⟩ => show win1_1.index t (1 : Fin 2) * 128 + 1 * k.val = k.val; omega
  · show V c main_arg6 (((cfg1.win 2).blk t).view.emb (colAt 5000 j k)) = V c main_arg6 (colAt 100000 (((cfg1.win 5).blk t).view.emb j) k)
    refine congrArg _ (funext fun a => Fin.ext ?_)
    match a with
    | ⟨0, _⟩ => show win1_2.index t (0 : Fin 2) * 128 + 1 * k.val = k.val; omega
    | ⟨1, _⟩ => show win1_2.index t (1 : Fin 2) * 128 + 1 * (j 1).val = win1_5.index t (1 : Fin 2) * 128 + 1 * (j 1).val; omega
  · show V c main_arg7 (((cfg1.win 3).blk t).view.emb (colAt 5000 j k)) = V c main_arg7 (colAt 100000 (((cfg1.win 5).blk t).view.emb j) k)
    refine congrArg _ (funext fun a => Fin.ext ?_)
    match a with
    | ⟨0, _⟩ => show win1_3.index t (0 : Fin 2) * 128 + 1 * k.val = k.val; omega
    | ⟨1, _⟩ => show win1_3.index t (1 : Fin 2) * 128 + 1 * (j 1).val = win1_5.index t (1 : Fin 2) * 128 + 1 * (j 1).val; omega
  · show V c main_v43 (((cfg1.win 4).blk t).view.emb (biasAt 5000 j)) = V c main_v43 (biasAt 100000 (((cfg1.win 5).blk t).view.emb j))
    refine congrArg _ (funext fun a => Fin.ext ?_)
    match a with
    | ⟨0, _⟩ => show win1_4.index t (0 : Fin 2) * 1 + 1 * 0 = 0; omega
    | ⟨1, _⟩ => show win1_4.index t (1 : Fin 2) * 128 + 1 * (j 1).val = win1_5.index t (1 : Fin 2) * 128 + 1 * (j 1).val; omega

/-- An index of the array is in point t's block iff each coordinate is in the block's range on its axis. -/
theorem mem_blk (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v44).slice (win1_5.rect t)).set ↔ _
  rw [View.set_slice_whole, Rect.mem_set_unit]
  exact Iff.rfl

/-- Every index of the array lies in the block of the point its row falls to. -/
theorem cover (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  refine ⟨⟨(i 0).val / 5000, by rw [hN]; omega⟩, flush1_5 _, ?_⟩
  rw [mem_blk]
  obtain ⟨-, -, -, -, -, -, -, -, -, -, e50, e51⟩ := idx_facts ⟨(i 0).val / 5000, by rw [hN]; omega⟩
  intro a
  match a with
  | ⟨0, _⟩ =>
    show win1_5.index ⟨(i 0).val / 5000, _⟩ (0 : Fin 2) * 5000 ≤ (i 0).val ∧ (i 0).val < win1_5.index ⟨(i 0).val / 5000, _⟩ (0 : Fin 2) * 5000 + 5000
    rw [e50]; show (i 0).val / 5000 * 5000 ≤ (i 0).val ∧ (i 0).val < (i 0).val / 5000 * 5000 + 5000; omega
  | ⟨1, _⟩ =>
    show win1_5.index ⟨(i 0).val / 5000, _⟩ (1 : Fin 2) * 128 ≤ (i 1).val ∧ (i 1).val < win1_5.index ⟨(i 0).val / 5000, _⟩ (1 : Fin 2) * 128 + 128
    rw [e51]; omega

/-- The output array after the region: the layer function of the arrays the region reads. -/
theorem final (c : Dev nD) : (dat1 V c).arrAt 5 cfg1.N = out V c :=
  (dat1 V c).arrAt_eq_of_cover 5 (out V c) (fun t _ => flushed_eq V c t) (cover)

end Cert.KernelIdeal.Layer1

end
-- ==== Proof.Layer2.lean ====
/-
  Region 2 of the kernel's program (its third pallas_call), at any contents V of the buffers when the region is entered:
  the output array after the region is the layer function (without an activation) of the five arrays the region reads.

  The grid has 20 points; point t works on rows 5000 t .. 5000 t + 4999: the two data windows and the output window
  take block (t, 0), the weights and the bias row are whole-array blocks (0, 0). What point t writes back is the
  body's stored value on the blocks at t, which is the tile function of those blocks (TileValue.lean); a tile's entry
  (r, q) only reads row r of the data tiles, and row r of the tile at t is row 5000 t + r of the array, so the
  written-back block is block t of the whole array's layer function. The 20 blocks cover every row (row i lies in
  the block of point i / 5000), so the array ends holding that function.
-/
import proofs.«163801_j14594298872163_1_alg».proof.Proof.Gen.KernelIdeal.Frame
import proofs.«163801_j14594298872163_1_alg».proof.Proof.TileValue

set_option maxRecDepth 16384

noncomputable section

namespace Cert.KernelIdeal.Layer2

open Cert.KernelIdeal Cert.KernelIdeal.Gen Idealize.ShloMosaic Idealize.ShloMosaic.TcCoe Idealize.SL.Sem
open Cert.Sage Cert.KernelIdeal.TileValue
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the data windows and the output move together down the rows, the weights
    and the bias stay at block (0, 0), and the output's row block at point t is t. -/
theorem idx_facts : ∀ t : Fin cfg2.N,
      win2_0.index t (0 : Fin 2) = win2_5.index t (0 : Fin 2) ∧ win2_0.index t (1 : Fin 2) = 0
    ∧ win2_1.index t (0 : Fin 2) = win2_5.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The whole array's layer function of the arrays the region reads, as it finds them. -/
abbrev out (c : Dev nD) : FVec Ideal S100000x128 .f32 :=
  pre 100000 (V c main_v57) (V c main_v44) (V c main_arg9) (V c main_arg10) (V c main_v58)

/-- What point t writes back is block t of the whole array's layer function. -/
theorem flushed_eq (c : Dev nD) (t : Fin cfg2.N) :
    (dat2 V c).flushed 5 t = ((cfg2.win 5).blk t).view.read (Elt Ideal) (out V c) := by
  show (cfg2.win 5).cut (grid2.coords t) ((dat2 V c).after 5 t) = _
  rw [after2_5]
  unfold out2_5
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51⟩ := idx_facts t
  funext j
  show k2_pay1 (F := Ideal) (iblk2 V c 0 t) (iblk2 V c 1 t) (iblk2 V c 2 t) (iblk2 V c 3 t) (iblk2 V c 4 t) j
    = pre 100000 (V c main_v57) (V c main_v44) (V c main_arg9) (V c main_arg10) (V c main_v58) (((cfg2.win 5).blk t).view.emb j)
  refine (pay2_apply (iblk2 V c 0 t) (iblk2 V c 1 t) (iblk2 V c 2 t) (iblk2 V c 3 t) (iblk2 V c 4 t) j).trans ?_
  refine pre_congr (iblk2 V c 0 t) (iblk2 V c 1 t) (iblk2 V c 2 t) (iblk2 V c 3 t) (iblk2 V c 4 t)
    (V c main_v57) (V c main_v44) (V c main_arg9) (V c main_arg10) (V c main_v58) j (((cfg2.win 5).blk t).view.emb j)
    (fun k => ?_) (fun k => ?_) (fun k => ?_) (fun k => ?_) ?_
  · show V c main_v57 (((cfg2.win 0).blk t).view.emb (rowAt 5000 j k)) = V c main_v57 (rowAt 100000 (((cfg2.win 5).blk t).view.emb j) k)
    refine congrArg _ (funext fun a => Fin.ext ?_)
    match a with
    | ⟨0, _⟩ => show win2_0.index t (0 : Fin 2) * 5000 + 1 * (j 0).val = win2_5.index t (0 : Fin 2) * 5000 + 1 * (j 0).val; omega
    | ⟨1, _⟩ => show win2_0.index t (1 : Fin 2) * 128 + 1 * k.val = k.val; omega
  · show V c main_v44 (((cfg2.win 1).blk t).view.emb (rowAt 5000 j k)) = V c main_v44 (rowAt 100000 (((cfg2.win 5).blk t).view.emb j) k)
    refine congrArg _ (funext fun a => Fin.ext ?_)
    match a with
    | ⟨0, _⟩ => show win2_1.index t (0 : Fin 2) * 5000 + 1 * (j 0).val = win2_5.index t (0 : Fin 2) * 5000 + 1 * (j 0).val; omega
    | ⟨1, _⟩ => show win2_1.index t (1 : Fin 2) * 128 + 1 * k.val = k.val; omega
  · show V c main_arg9 (((cfg2.win 2).blk t).view.emb (colAt 5000 j k)) = V c main_arg9 (colAt 100000 (((cfg2.win 5).blk t).view.emb j) k)
    refine congrArg _ (funext fun a => Fin.ext ?_)
    match a with
    | ⟨0, _⟩ => show win2_2.index t (0 : Fin 2) * 128 + 1 * k.val = k.val; omega
    | ⟨1, _⟩ => show win2_2.index t (1 : Fin 2) * 128 + 1 * (j 1).val = win2_5.index t (1 : Fin 2) * 128 + 1 * (j 1).val; omega
  · show V c main_arg10 (((cfg2.win 3).blk t).view.emb (colAt 5000 j k)) = V c main_arg10 (colAt 100000 (((cfg2.win 5).blk t).view.emb j) k)
    refine congrArg _ (funext fun a => Fin.ext ?_)
    match a with
    | ⟨0, _⟩ => show win2_3.index t (0 : Fin 2) * 128 + 1 * k.val = k.val; omega
    | ⟨1, _⟩ => show win2_3.index t (1 : Fin 2) * 128 + 1 * (j 1).val = win2_5.index t (1 : Fin 2) * 128 + 1 * (j 1).val; omega
  · show V c main_v58 (((cfg2.win 4).blk t).view.emb (biasAt 5000 j)) = V c main_v58 (biasAt 100000 (((cfg2.win 5).blk t).view.emb j))
    refine congrArg _ (funext fun a => Fin.ext ?_)
    match a with
    | ⟨0, _⟩ => show win2_4.index t (0 : Fin 2) * 1 + 1 * 0 = 0; omega
    | ⟨1, _⟩ => show win2_4.index t (1 : Fin 2) * 128 + 1 * (j 1).val = win2_5.index t (1 : Fin 2) * 128 + 1 * (j 1).val; omega

/-- An index of the array is in point t's block iff each coordinate is in the block's range on its axis. -/
theorem mem_blk (t : Fin cfg2.N) (i : S100000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v59).slice (win2_5.rect t)).set ↔ _
  rw [View.set_slice_whole, Rect.mem_set_unit]
  exact Iff.rfl

/-- Every index of the array lies in the block of the point its row falls to. -/
theorem cover (i : S100000x128.Idx) : ∃ t : Fin cfg2.N, (cfg2.win 5).flush t = true ∧ i ∈ ((cfg2.win 5).blk t).view.set := by
  have hi0 : (i 0).val < 100000 := (i 0).isLt
  have hi1 : (i 1).val < 128 := (i 1).isLt
  have hN : cfg2.N = 20 := N_2
  refine ⟨⟨(i 0).val / 5000, by rw [hN]; omega⟩, flush2_5 _, ?_⟩
  rw [mem_blk]
  obtain ⟨-, -, -, -, -, -, -, -, -, -, e50, e51⟩ := idx_facts ⟨(i 0).val / 5000, by rw [hN]; omega⟩
  intro a
  match a with
  | ⟨0, _⟩ =>
    show win2_5.index ⟨(i 0).val / 5000, _⟩ (0 : Fin 2) * 5000 ≤ (i 0).val ∧ (i 0).val < win2_5.index ⟨(i 0).val / 5000, _⟩ (0 : Fin 2) * 5000 + 5000
    rw [e50]; show (i 0).val / 5000 * 5000 ≤ (i 0).val ∧ (i 0).val < (i 0).val / 5000 * 5000 + 5000; omega
  | ⟨1, _⟩ =>
    show win2_5.index ⟨(i 0).val / 5000, _⟩ (1 : Fin 2) * 128 ≤ (i 1).val ∧ (i 1).val < win2_5.index ⟨(i 0).val / 5000, _⟩ (1 : Fin 2) * 128 + 128
    rw [e51]; omega

/-- The output array after the region: the layer function of the arrays the region reads. -/
theorem final (c : Dev nD) : (dat2 V c).arrAt 5 cfg2.N = out V c :=
  (dat2 V c).arrAt_eq_of_cover 5 (out V c) (fun t _ => flushed_eq V c t) (cover)

end Cert.KernelIdeal.Layer2

end
-- ==== Proof.EntriesC.lean ====
/-
  Through the second region, the last stretch and the third region: what the kernel's program returns.

  The second region's output is the second layer's features `feat2` (Layer1.lean at the entry values of EntriesB.lean);
  the last stretch computes their neighbour mean and the third bias row; the third region's output, the array the
  program returns, is the third layer's function of those (Layer2.lean) — the network of SageSpec.lean over the
  neighbour mean of HostChain.lean, of the arguments as launched.
-/
import proofs.«163801_j14594298872163_1_alg».proof.Proof.EntriesB
import proofs.«163801_j14594298872163_1_alg».proof.Proof.Layer1
import proofs.«163801_j14594298872163_1_alg».proof.Proof.Layer2

set_option maxRecDepth 16384

noncomputable section

namespace Cert.KernelIdeal.EntriesC

open Cert.KernelIdeal Cert.KernelIdeal.Gen Idealize.ShloMosaic Idealize.ShloMosaic.TcCoe Idealize.SL.Sem
open Idealize.ShloMosaic.StableHlo Cert.KernelIdeal.HostChain Cert.Sage Cert.KernelIdeal.EntriesA Cert.KernelIdeal.EntriesB

variable (m : (ℓ : Loc nD τ sig) → Buf (Elt Ideal) ℓ) (ρ : Dev nD → PrngReg) (c : Dev nD)

/-- A stretch of host operations leaves a buffer none of them writes as it was. -/
local macro "not_written" ops:ident : tactic => `(tactic| (
  refine StableHlo.after_of_forall_not_mem _ _ (List.forall_iff_forall_mem.mp ?_)
  simp only [$ops:ident, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

/-- The arguments the third layer reads. -/
abbrev IsLastArg (b : Ref sig .tc) : Prop := b = main_arg9 ∨ b = main_arg10 ∨ b = main_arg11

/-- The features after the second layer. -/
def feat2 : FVec Ideal ⟨2, ![100000, 128]⟩ .f32 :=
  act 100000 (agg (F := Ideal) (m ((c.tc : Thread nD τ).loc main_arg2)) (feat1 m c)) (feat1 m c) (m ((c.tc : Thread nD τ).loc main_arg6)) (m ((c.tc : Thread nD τ).loc main_arg7)) (rowOf (m ((c.tc : Thread nD τ).loc main_arg8)))

/-! ## At the second region's exit -/

theorem W6_arg {b : Ref sig .tc} (hb : IsLastArg b) : W6 m ρ c (Proc.devRef .tc b) = m ((c.tc : Thread nD τ).loc b) := by
  rcases hb with rfl | rfl | rfl <;>
  exact (W6_of_ne m ρ c _ (by decide)).trans (W5_arg m ρ c (by decide))

theorem W6_v1 : W6 m ρ c (Proc.devRef .tc main_v1) = src (F := Ideal) (m ((c.tc : Thread nD τ).loc main_arg2)) :=
  (W6_of_ne m ρ c main_v1 (by decide)).trans (W5_v1 m ρ c)
theorem W6_v3 : W6 m ρ c (Proc.devRef .tc main_v3) = dst (F := Ideal) (m ((c.tc : Thread nD τ).loc main_arg2)) :=
  (W6_of_ne m ρ c main_v3 (by decide)).trans (W5_v3 m ρ c)
theorem W6_v14 : W6 m ρ c (Proc.devRef .tc main_v14) = dinv (F := Ideal) (m ((c.tc : Thread nD τ).loc main_arg2)) :=
  (W6_of_ne m ρ c main_v14 (by decide)).trans (W5_v14 m ρ c)

/-- The second region's output array holds the second layer's features. -/
theorem W6_v44 : W6 m ρ c (Proc.devRef .tc main_v44) = feat2 m c := by
  refine ((W6_arr m ρ c 5).trans (Layer1.final (V5 m ρ) c)).trans ?_
  show act 100000 (W5 m ρ c (Proc.devRef .tc main_v42)) (W5 m ρ c (Proc.devRef .tc main_v29)) (W5 m ρ c (Proc.devRef .tc main_arg6))
      (W5 m ρ c (Proc.devRef .tc main_arg7)) (W5 m ρ c (Proc.devRef .tc main_v43)) = _
  rw [W5_v42, W5_v29, W5_arg m ρ c (b := main_arg6) (by decide), W5_arg m ρ c (b := main_arg7) (by decide), W5_v43]
  rfl

/-! ## At the third region's entry -/

theorem W7_arg {b : Ref sig .tc} (hb : IsLastArg b) : W7 m ρ c (Proc.devRef .tc b) = m ((c.tc : Thread nD τ).loc b) := by
  rcases hb with rfl | rfl | rfl <;>
  exact (show W7 m ρ c _ = W6 m ρ c _ by not_written hostOps2).trans (W6_arg m ρ c (by decide))

theorem W7_v44 : W7 m ρ c (Proc.devRef .tc main_v44) = feat2 m c :=
  (show W7 m ρ c (Proc.devRef .tc main_v44) = W6 m ρ c (Proc.devRef .tc main_v44) by not_written hostOps2).trans (W6_v44 m ρ c)

/-- The third region's first operand: the neighbour mean of the second layer's features. -/
theorem W7_v57 : W7 m ρ c (Proc.devRef .tc main_v57) = agg (F := Ideal) (m ((c.tc : Thread nD τ).loc main_arg2)) (feat2 m c) := by
  refine (Stretches.mean2 (W6 m ρ c)).trans ?_
  rw [W6_v1, W6_v3, W6_v14, W6_v44]
  rfl

/-- The third region's bias operand: the third bias as a row. -/
theorem W7_v58 : W7 m ρ c (Proc.devRef .tc main_v58) = rowOf (m ((c.tc : Thread nD τ).loc main_arg11)) := by
  refine (Stretches.bias2 (W6 m ρ c)).trans ?_
  rw [W6_arg m ρ c (b := main_arg11) (by decide)]
  exact bias_row _ _

/-! ## The returned array -/

/-- At the last boundary the result array holds the network of the arguments as launched. -/
theorem W8_v59 : W8 m ρ c (Proc.devRef .tc main_v59)
    = net (agg (F := Ideal) (m ((c.tc : Thread nD τ).loc main_arg2))) (m ((c.tc : Thread nD τ).loc main_arg1))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8))
        (m ((c.tc : Thread nD τ).loc main_arg9)) (m ((c.tc : Thread nD τ).loc main_arg10)) (m ((c.tc : Thread nD τ).loc main_arg11)) := by
  refine ((W8_arr m ρ c 5).trans (Layer2.final (V7 m ρ) c)).trans ?_
  show pre 100000 (W7 m ρ c (Proc.devRef .tc main_v57)) (W7 m ρ c (Proc.devRef .tc main_v44)) (W7 m ρ c (Proc.devRef .tc main_arg9))
      (W7 m ρ c (Proc.devRef .tc main_arg10)) (W7 m ρ c (Proc.devRef .tc main_v58)) = _
  rw [W7_v57, W7_v44, W7_arg m ρ c (b := main_arg9) (by decide), W7_arg m ρ c (b := main_arg10) (by decide), W7_v58]
  rfl

end Cert.KernelIdeal.EntriesC

end
-- ==== Proof.KernelValue.lean ====
/-
  The kernel's program, run at the extended reals: it returns the three-layer network of its arguments.

  Every weakly fair execution of the idealized kernel program terminates without a fault, leaves the arguments as
  launched, and leaves in its result array the network of SageSpec.lean — over the neighbour mean of HostChain.lean —
  of the input features, the edge list, the six weight matrices and the three biases as launched: the program's run
  with the result array kept at the last boundary's contents, which EntriesC.lean reads back to the arguments.
-/
import proofs.«163801_j14594298872163_1_alg».proof.Proof.KernelRun
import proofs.«163801_j14594298872163_1_alg».proof.Proof.EntriesC

noncomputable section

namespace Cert.KernelIdeal.KernelValue

open Cert.KernelIdeal Cert.KernelIdeal.Gen Idealize.ShloMosaic Idealize.ShloMosaic.TcCoe Idealize.SL.Sem
open Cert.KernelIdeal.HostChain Cert.Sage

theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v59)
        = net (agg (F := Ideal) (m ((c.tc : Thread nD τ).loc main_arg2))) (m ((c.tc : Thread nD τ).loc main_arg1))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7)) (m ((c.tc : Thread nD τ).loc main_arg8))
            (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c).1.trans (Cert.KernelIdeal.EntriesC.W8_v59 m ρ c), (h c).2⟩)
    (Cert.KernelIdeal.GenP.run_result (F := Ideal) m ρ)

end Cert.KernelIdeal.KernelValue

end
-- ==== Proof.RefLayers.lean ====
/-
  The reference's result is the three-layer network of SageSpec.lean over the neighbour mean of HostChain.lean.

  The reference computes a layer on the host as two matrix products (each entry the plain sum over k of a[r,k] *
  w[k,q] at the extended reals), their sum, the bias broadcast to a [1,128] row and then down the rows, added last, and
  for the first two layers the elementwise maximum with a zero array. Read at an index those stages are the layer
  function at 100000 rows: the products by the read-at-an-index lemma of the reference's own matrix product, the bias by
  those of its two broadcasts. What lies between the layers — the gather along the edges, the scatter-add by destination,
  the division by the degree — is the same chain of operations the kernel's program applies, and is never opened: the
  reference's term, its layers folded, is the network over that chain, definitionally.
-/
import proofs.«163801_j14594298872163_1_alg».proof.Proof.RefRead
import proofs.«163801_j14594298872163_1_alg».proof.Proof.HostChain
import proofs.«163801_j14594298872163_1_alg».proof.Proof.SageSpec

noncomputable section

namespace Cert.ReferenceIdeal.Layers

open Cert.ReferenceIdeal Cert.ReferenceIdeal.Gen Idealize.ShloMosaic Idealize.ShloMosaic.TcCoe Idealize.SL.Sem
open Cert.ReferenceIdeal.ReadP Cert.Sage

/-! ## The reference's index functions are the specification's -/

theorem lidx_eq (i : S100000x128.Idx) (k : Fin 128) : lidx_main_v29 i k = rowAt 100000 i k :=
  funext fun a => by match a with | ⟨0, _⟩ => rfl | ⟨1, _⟩ => rfl
theorem ridx_eq (i : S100000x128.Idx) (k : Fin 128) : ridx_main_v29 i k = colAt 100000 i k :=
  funext fun a => by match a with | ⟨0, _⟩ => rfl | ⟨1, _⟩ => rfl
theorem bias_eq (b : FVec Ideal S128 .f32) (i : S100000x128.Idx) : b (idx_main_v31 (idx_main_v32 i)) = rowOf b (biasAt 100000 i) :=
  congrArg b (funext fun a => by match a with | ⟨0, _⟩ => rfl)

/-! ## A layer's host stages, read at an index -/

/-- Two matrix products, their sum and the broadcast bias: the layer function before its activation. -/
theorem host_pre (mean x : FVec Ideal S100000x128 .f32) (Wl Wr : FVec Ideal S128x128 .f32) (b : FVec Ideal S128 .f32) :
    addf (addf (Host.dotGeneral dot_S100000x128_S128x128_S100000x128_1_0_0_1_n_n none mean Wl) (Host.dotGeneral dot_S100000x128_S128x128_S100000x128_1_0_0_1_n_n none x Wr))
        (broadcastInDim S100000x128 ![0, 1] bcast_S1x128_S100000x128_0_1 (broadcastInDim S1x128 ![1] bcast_S128_S1x128_1 b))
      = pre 100000 mean x Wl Wr (rowOf b) := by
  funext i
  show (val_main_v29 (F := Ideal) mean Wl i + val_main_v29 (F := Ideal) x Wr i) + val_main_v32 (F := Ideal) b i = _
  rw [val_main_v29_apply, val_main_v29_apply, val_main_v32_apply, val_main_v31_apply, bias_eq b i]
  simp only [lidx_eq, ridx_eq]
  rfl

/-- The elementwise maximum with the zero array is the maximum with 0 at each index. -/
theorem host_relu (y : FVec Ideal S100000x128 .f32) :
    maximumf y (broadcastInDim S100000x128 ![] bcast_S_S100000x128 (constant (F := Ideal) S_ .f32 0x00000000#32)) = fun i => max (y i) 0 := by
  funext i
  show max (y i) (Ideal.ofBits .f32 0x00000000#32) = _
  rw [Ideal.ofBits_zero_f32]

/-! ## The reference's result -/

section Shape

variable {F : FTy → Type} [FloatOps F]

/-- A layer's host operations before its activation: two matrix products, their sum, the broadcast bias added. -/
def hostLayer (mean x : FVec F S100000x128 .f32) (Wl Wr : FVec F S128x128 .f32) (b : FVec F S128 .f32) : FVec F S100000x128 .f32 :=
  addf (addf (Host.dotGeneral dot_S100000x128_S128x128_S100000x128_1_0_0_1_n_n none mean Wl) (Host.dotGeneral dot_S100000x128_S128x128_S100000x128_1_0_0_1_n_n none x Wr))
    (broadcastInDim S100000x128 ![0, 1] bcast_S1x128_S100000x128_0_1 (broadcastInDim S1x128 ![1] bcast_S128_S1x128_1 b))

/-- The activation's host operation: the elementwise maximum with the zero array. -/
def hostRelu (y : FVec F S100000x128 .f32) : FVec F S100000x128 .f32 :=
  maximumf y (broadcastInDim S100000x128 ![] bcast_S_S100000x128 (constant S_ .f32 0x00000000#32))

/-- The reference's three layers as host operations, over a neighbour-mean function `agg`. -/
def hostNet (agg : FVec F S100000x128 .f32 → FVec F S100000x128 .f32) (x : FVec F S100000x128 .f32)
    (W1l W1r : FVec F S128x128 .f32) (b1 : FVec F S128 .f32) (W2l W2r : FVec F S128x128 .f32) (b2 : FVec F S128 .f32)
    (W3l W3r : FVec F S128x128 .f32) (b3 : FVec F S128 .f32) : FVec F S100000x128 .f32 :=
  hostLayer (agg (hostRelu (hostLayer (agg (hostRelu (hostLayer (agg x) x W1l W1r b1))) (hostRelu (hostLayer (agg x) x W1l W1r b1)) W2l W2r b2)))
    (hostRelu (hostLayer (agg (hostRelu (hostLayer (agg x) x W1l W1r b1))) (hostRelu (hostLayer (agg x) x W1l W1r b1)) W2l W2r b2)) W3l W3r b3

set_option maxRecDepth 16384 in
set_option maxHeartbeats 4000000 in
/-- The reference's composed term IS those three layers over the shared chain of host operations: the operations
    between the layers are, one for one, the kernel program's (the same operations over the same dimension records). -/
theorem res_shape (m : (ℓ : Loc nD τ sig) → Buf (Elt F) ℓ) (c : Dev nD) :
    Cert.ReferenceIdeal.ValueP.res_main_v73 (F := F) m c
      = hostNet (Cert.KernelIdeal.HostChain.agg (F := F) (m ((c.tc : Thread nD τ).loc main_arg2))) (m ((c.tc : Thread nD τ).loc main_arg1))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11)) := by
  unfold Cert.ReferenceIdeal.ValueP.res_main_v73
  rfl

end Shape

/-- A host layer before its activation is the specification's. -/
theorem hostLayer_eq (mean x : FVec Ideal S100000x128 .f32) (Wl Wr : FVec Ideal S128x128 .f32) (b : FVec Ideal S128 .f32) :
    hostLayer (F := Ideal) mean x Wl Wr b = pre 100000 mean x Wl Wr (rowOf b) := host_pre mean x Wl Wr b

/-- The host activation of a layer is the specification's layer with its activation. -/
theorem hostRelu_pre (mean x : FVec Ideal S100000x128 .f32) (Wl Wr : FVec Ideal S128x128 .f32) (b : FVec Ideal ⟨2, ![1, 128]⟩ .f32) :
    hostRelu (F := Ideal) (pre 100000 mean x Wl Wr b) = act 100000 mean x Wl Wr b := host_relu _

/-- The reference's three host layers are the specification's network. -/
theorem hostNet_eq (agg : FVec Ideal S100000x128 .f32 → FVec Ideal S100000x128 .f32) (x : FVec Ideal S100000x128 .f32)
    (W1l W1r : FVec Ideal S128x128 .f32) (b1 : FVec Ideal S128 .f32) (W2l W2r : FVec Ideal S128x128 .f32) (b2 : FVec Ideal S128 .f32)
    (W3l W3r : FVec Ideal S128x128 .f32) (b3 : FVec Ideal S128 .f32) :
    hostNet (F := Ideal) agg x W1l W1r b1 W2l W2r b2 W3l W3r b3 = net agg x W1l W1r b1 W2l W2r b2 W3l W3r b3 := by
  unfold hostNet net
  simp only [hostLayer_eq, hostRelu_pre]

/-- The reference's result is the network over the shared neighbour mean. -/
theorem result_eq (m : (ℓ : Loc nD τ sig) → Buf (Elt Ideal) ℓ) (c : Dev nD) :
    Cert.ReferenceIdeal.ValueP.res_main_v73 (F := Ideal) m c
      = net (Cert.KernelIdeal.HostChain.agg (F := Ideal) (m ((c.tc : Thread nD τ).loc main_arg2))) (m ((c.tc : Thread nD τ).loc main_arg1))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11)) :=
  (res_shape (F := Ideal) m c).trans (hostNet_eq _ _ _ _ _ _ _ _ _ _ _)

end Cert.ReferenceIdeal.Layers

end
-- ==== Proof.lean ====
/-
  A three-layer graph network (mean aggregation over the edges, then mean · Wl + x · Wr + b per layer, the first two
  layers followed by a maximum with 0), written as a Pallas kernel for the dense part of each layer, against its
  plain jnp reference: the two are equal over the extended reals.

  Both programs compute the aggregation — the gather of the features along the edges, the scatter-add by destination
  node, the division by the degree — with the very same host operations, so it is carried as one function `agg` of the
  features and never opened. A layer's dense part is, at row r and column q,
      (sum over k of mean[r,k] * Wl[k,q]) + (sum over k of x[r,k] * Wr[k,q]) + b[q].
  The kernel computes it tile by tile, 5000 rows at a time, as two matrix products into zero accumulators on operands
  narrowed to bf16 (the identity on extended reals), their sum, and the bias row broadcast down the tile; a tile's rows
  only read the same rows of the operands, so the tiles written back are the blocks of the whole array's function
  (Layer0/1/2.lean over TileValue.lean). The reference computes it as two whole matrix products, their sum and the
  broadcast bias (RefLayers.lean). The groupings are the same on both sides, so no law of arithmetic is used beyond
  reading the sums, and the precondition is not opened. Chained through the three layers (EntriesA/B/C.lean for the
  kernel's program, RefLayers.lean for the reference) both results are the one term `net agg x W b` of SageSpec.lean.

  The frames of the two kernel programs are the generated ones; the reference's frame is its run with the result
  dropped; the idealization rewrote nothing, so there is nothing to preserve.
-/
import proofs.«163801_j14594298872163_1_alg».proof.Defs
import proofs.«163801_j14594298872163_1_alg».proof.Proof.Gen.Kernel
import proofs.«163801_j14594298872163_1_alg».proof.Proof.Gen.Kernel.Frame
import proofs.«163801_j14594298872163_1_alg».proof.Proof.Gen.KernelIdeal
import proofs.«163801_j14594298872163_1_alg».proof.Proof.Gen.KernelIdeal.Frame
import proofs.«163801_j14594298872163_1_alg».proof.Proof.Gen.ReferenceIdeal
import proofs.«163801_j14594298872163_1_alg».proof.Proof.Gen.Pre_finite_inputs
import proofs.«163801_j14594298872163_1_alg».proof.Proof.KernelValue
import proofs.«163801_j14594298872163_1_alg».proof.Proof.RefLayers
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Both programs end with the network of their arguments in their result arrays, and the arguments agree. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.ValueP.run (F := Ideal) m' ρ')
  obtain ⟨-, h1, h2, h3, h4, h5, h6, h7, h8, h9, h10, h11⟩ := hagree c
  rw [Cert.ReferenceIdeal.Layers.result_eq, h1, h2, h3, h4, h5, h6, h7, h8, h9, h10, h11]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
